-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x4096 .f32) (main_arg5 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x4096x1024 .f32) (main_arg1 : FVec F S8 .f32) (main_arg2 : FVec F S4096x8 .f32) (main_arg3 : FVec F S4096 .f32) (main_arg4 : FVec F S1024x4096 .f32) (main_arg5 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8x4096x1024 : Shape := ⟨3, ![8, 4096, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S8x4096x8 : Shape := ⟨3, ![8, 4096, 8]⟩
abbrev S1x1x8 : Shape := ⟨3, ![1, 1, 8]⟩
abbrev S32768x8 : Shape := ⟨2, ![32768, 8]⟩
abbrev S8x4096 : Shape := ⟨2, ![8, 4096]⟩
abbrev S4096x1024 : Shape := ⟨2, ![4096, 1024]⟩
abbrev S1x4096 : Shape := ⟨2, ![1, 4096]⟩
abbrev S1x1024 : Shape := ⟨2, ![1, 1024]⟩
abbrev S32768x1024 : Shape := ⟨2, ![32768, 1024]⟩
abbrev S512x8 : Shape := ⟨2, ![512, 8]⟩
abbrev S512x1024 : Shape := ⟨2, ![512, 1024]⟩
abbrev S512x4096 : Shape := ⟨2, ![512, 4096]⟩

abbrev nBuf : Space → Nat
  | .hbm => 22
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S8x4096x8, .f32⟩
  | .hbm, ⟨7, _⟩ => ⟨S8x4096x8, .f32⟩
  | .hbm, ⟨8, _⟩ => ⟨S8, .f32⟩
  | .hbm, ⟨9, _⟩ => ⟨S1x1x8, .f32⟩
  | .hbm, ⟨10, _⟩ => ⟨S8x4096x8, .f32⟩
  | .hbm, ⟨11, _⟩ => ⟨S8x4096x8, .f32⟩
  | .hbm, ⟨12, _⟩ => ⟨S32768x8, .f32⟩
  | .hbm, ⟨13, _⟩ => ⟨S32768x8, .bf16⟩
  | .hbm, ⟨14, _⟩ => ⟨S8x4096, .f32⟩
  | .hbm, ⟨15, _⟩ => ⟨S8x4096, .bf16⟩
  | .hbm, ⟨16, _⟩ => ⟨S4096x1024, .f32⟩
  | .hbm, ⟨17, _⟩ => ⟨S4096x1024, .bf16⟩
  | .hbm, ⟨18, _⟩ => ⟨S1x4096, .f32⟩
  | .hbm, ⟨19, _⟩ => ⟨S1x1024, .f32⟩
  | .hbm, ⟨20, _⟩ => ⟨S32768x1024, .f32⟩
  | .hbm, ⟨21, _⟩ => ⟨S8x4096x1024, .f32⟩
  | .local _ .vmem, ⟨0, _⟩ => ⟨S512x8, .bf16⟩
  | .local _ .vmem, ⟨1, _⟩ => ⟨S512x8, .bf16⟩
  | .local _ .vmem, ⟨2, _⟩ => ⟨S8x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S8x4096x1024_S8x4096x8_0_0_0 : S8x4096x1024.Slices ![0, 0, 0] S8x4096x8
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  shapeCasts_S8x4096x8_S32768x8 : S8x4096x8.ShapeCasts S32768x8
  bitsLt_bf16_f32 : FTy.bits .bf16 < FTy.bits .f32
  transposes_S4096x8_S8x4096_1_0 : S4096x8.Transposes [1, 0] S8x4096
  transposes_S1024x4096_S4096x1024_1_0 : S1024x4096.Transposes [1, 0] S4096x1024
  shapeCasts_S4096_S1x4096 : S4096.ShapeCasts S1x4096
  shapeCasts_S1024_S1x1024 : S1024.ShapeCasts S1x1024
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S32768x1024_S8x4096x1024 : S32768x1024.ShapeCasts S8x4096x1024
  dot_S512x8_S8x4096_S512x4096_1_0_0_1_n_n_wf : DotDims.WF S512x8 S8x4096 S512x4096 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8.size a ≤ S32768x8.size a
  hwx0_0 : ∀ i : grid0.Coords, EltTy.bits .bf16 = 32 ∨ (Rect.block (s := S32768x8) S512x8.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S8x4096.size a
  hwx0_1 : ∀ i : grid0.Coords, EltTy.bits .bf16 = 32 ∨ (Rect.block (s := S8x4096) S8x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S32768x1024.size a
  hwx0_5 : ∀ i : grid0.Coords, EltTy.bits .f32 = 32 ∨ (Rect.block (s := S32768x1024) S512x1024.size (cc0_transform_5 i) (hinb0_5 i)).WholeWords (EltTy.packing .f32)

variable [Facts₀]

def dot_S512x8_S8x4096_S512x4096_1_0_0_1_n_n : DotDims S512x8 S8x4096 S512x4096 where
  lhsContracting := [1]
  rhsContracting := [0]
  lhsNonContracting := [0]
  rhsNonContracting := [1]
  lhsBatch := []
  rhsBatch := []
  wf := dot_S512x8_S8x4096_S512x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v7) S512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S8x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S8x4096x8 : Shape := ⟨3, ![8, 4096, 8]⟩
abbrev S1x1x8 : Shape := ⟨3, ![1, 1, 8]⟩
abbrev S8x4096x4096 : Shape := ⟨3, ![8, 4096, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S8x4096x8, .f32⟩
  | .hbm, ⟨7, _⟩ => ⟨S8x4096x8, .f32⟩
  | .hbm, ⟨8, _⟩ => ⟨S8, .f32⟩
  | .hbm, ⟨9, _⟩ => ⟨S1x1x8, .f32⟩
  | .hbm, ⟨10, _⟩ => ⟨S8x4096x8, .f32⟩
  | .hbm, ⟨11, _⟩ => ⟨S8x4096x8, .f32⟩
  | .hbm, ⟨12, _⟩ => ⟨S8x4096x4096, .f32⟩
  | .hbm, ⟨13, _⟩ => ⟨S1x1x4096, .f32⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S8x4096x1024_S8x4096x8_0_0_0 : S8x4096x1024.Slices ![0, 0, 0] S8x4096x8
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S4096_S1x1x4096_2 : S4096.BroadcastsInDim S1x1x4096 (![2] : Fin 1 → Fin S1x1x4096.rank)
  bcast_S1x1x4096_S8x4096x4096_0_1_2 : S1x1x4096.BroadcastsInDim S8x4096x4096 (![0, 1, 2] : Fin 3 → Fin S8x4096x4096.rank)
  bcast_S_S8x4096x4096 : S_.BroadcastsInDim S8x4096x4096 (![] : Fin 0 → Fin S8x4096x4096.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x8_S4096x8_S8x4096x4096_2_1_01_0_n_n_wf : DotDims.WF S8x4096x8 S4096x8 S8x4096x4096 [2] [1] [0, 1] [0] [] []
  dot_S8x4096x4096_S1024x4096_S8x4096x1024_2_1_01_0_n_n_wf : DotDims.WF S8x4096x4096 S1024x4096 S8x4096x1024 [2] [1] [0, 1] [0] [] []

variable [Facts₀]

def dot_S8x4096x8_S4096x8_S8x4096x4096_2_1_01_0_n_n : DotDims S8x4096x8 S4096x8 S8x4096x4096 where
  lhsContracting := [2]
  rhsContracting := [1]
  lhsNonContracting := [0, 1]
  rhsNonContracting := [0]
  lhsBatch := []
  rhsBatch := []
  wf := dot_S8x4096x8_S4096x8_S8x4096x4096_2_1_01_0_n_n_wf
def dot_S8x4096x4096_S1024x4096_S8x4096x1024_2_1_01_0_n_n : DotDims S8x4096x4096 S1024x4096 S8x4096x1024 where
  lhsContracting := [2]
  rhsContracting := [1]
  lhsNonContracting := [0, 1]
  rhsNonContracting := [0]
  lhsBatch := []
  rhsBatch := []
  wf := dot_S8x4096x4096_S1024x4096_S8x4096x1024_2_1_01_0_n_n_wf

class Facts : Prop extends Facts₀ where

variable [Facts]
-- ==== Proof.Spec.lean ====
/-
  The function both programs compute, over the extended reals, index by index.

  For a token (b, s) the eight features are  feat q = cos x[b, s, q] · cos θ[q]  (only the first eight of the 1024
  channels of x are read); the hidden layer is  hidden f = max (Σ_q feat q · w1[f, q] + b1[f]) 0 ; and the result is
  out e = Σ_f hidden f · w2[e, f] + b2[e].  The kernel works on the 32768 = 8 · 4096 tokens as one flat row axis
  r = 4096 · b + s, so the same function is also stated over flat rows (`rowsOut`), and the two are related by
  splitting r into r / 4096 and r % 4096.
-/
import Idealize.ShloMosaic.PureOps.Ideal
import Idealize.ShloMosaic.Lib.ValueIdx

noncomputable section

open scoped BigOperators

namespace Cert.Mlp

open Idealize.ShloMosaic Idealize.ShloMosaic.ValueIdx

abbrev SX : Shape := ⟨3, ![8, 4096, 1024]⟩
abbrev STheta : Shape := ⟨1, ![8]⟩
abbrev SW1 : Shape := ⟨2, ![4096, 8]⟩
abbrev SB1 : Shape := ⟨1, ![4096]⟩
abbrev SW2 : Shape := ⟨2, ![1024, 4096]⟩
abbrev SB2 : Shape := ⟨1, ![1024]⟩
abbrev SRows : Shape := ⟨2, ![32768, 1024]⟩

/-- Feature channel `q` (below 8) as a channel of the 1024-wide input. -/
abbrev chan (q : Fin 8) : Fin 1024 := ⟨q.val, by have := q.isLt; omega⟩

section
variable (x : FVec Ideal SX .f32) (θ : FVec Ideal STheta .f32) (w1 : FVec Ideal SW1 .f32) (b1 : FVec Ideal SB1 .f32)
  (w2 : FVec Ideal SW2 .f32) (b2 : FVec Ideal SB2 .f32)

/-- Feature `q` of token (b, s): cos x[b, s, q] · cos θ[q]. -/
def feat (b : Fin 8) (s : Fin 4096) (q : Fin 8) : EReal :=
  Ideal.cos (x (ix3 b s (chan q))) * Ideal.cos (θ (ix1 q))

/-- Hidden unit `f` of token (b, s): the rectified affine image of the features. -/
def hidden (b : Fin 8) (s : Fin 4096) (f : Fin 4096) : EReal :=
  max ((∑ q : Fin 8, feat x θ b s q * w1 (ix2 f q)) + b1 (ix1 f)) 0

/-- Output channel `e` of token (b, s). -/
def outv (b : Fin 8) (s : Fin 4096) (e : Fin 1024) : EReal :=
  (∑ f : Fin 4096, hidden x θ w1 b1 b s f * w2 (ix2 e f)) + b2 (ix1 e)

/-- The whole result, [8, 4096, 1024]. -/
def result : FVec Ideal SX .f32 := fun i => outv x θ w1 b1 w2 b2 (i 0) (i 1) (i 2)

/-- The batch of a flat row. -/
abbrev rowB (r : Fin 32768) : Fin 8 := ⟨r.val / 4096, by have := r.isLt; omega⟩
/-- The position of a flat row inside its batch. -/
abbrev rowS (r : Fin 32768) : Fin 4096 := ⟨r.val % 4096, Nat.mod_lt _ (by decide)⟩

/-- The same result over flat rows r = 4096 · b + s, [32768, 1024]. -/
def rowsOut : FVec Ideal SRows .f32 := fun j => outv x θ w1 b1 w2 b2 (rowB (j 0)) (rowS (j 0)) (j 1)

/-- Row 4096 · b + s of the flat result is token (b, s) of the result. -/
theorem rowsOut_flat (b : Fin 8) (s : Fin 4096) (e : Fin 1024) (r : Fin 32768) (hr : r.val = b.val * 4096 + s.val) :
    rowsOut x θ w1 b1 w2 b2 (ix2 r e) = result x θ w1 b1 w2 b2 (ix3 b s e) := by
  have hb : rowB r = b := Fin.ext (by show r.val / 4096 = b.val; have := s.isLt; omega)
  have hs : rowS r = s := Fin.ext (by show r.val % 4096 = s.val; have := s.isLt; omega)
  show outv x θ w1 b1 w2 b2 (rowB r) (rowS r) e = outv x θ w1 b1 w2 b2 b s e
  rw [hb, hs]

end

end Cert.Mlp

end
-- ==== Proof.RefSide.lean ====
/-
  The reference computes `Cert.Mlp.result`.

  Its last stage, read one operation at a time, is: a sum over the 4096 hidden units of
  max (Σ_q (cos x · cos θ) · w1 + b1, 0) · w2, plus b2 — each operand read at an index the operation's dimension
  numbers give.  Those composed indices are the coordinates (b, s, q), (f, q), (e, f) of the specification, so the
  two terms are equal summand by summand; the rectifier's threshold is the word of 0.
-/
import proofs.«118878_j65481071399837_1_alg».proof.Proof.Gen.ReferenceIdeal.Read
import proofs.«118878_j65481071399837_1_alg».proof.Proof.Spec

noncomputable section

open scoped BigOperators

namespace Cert.Mlp.Ref

open Cert.ReferenceIdeal Cert.ReferenceIdeal.Gen Cert.ReferenceIdeal.Read Idealize.ShloMosaic Idealize.ShloMosaic.ValueIdx Cert.Mlp

variable (x : FVec Ideal SX .f32) (θ : FVec Ideal STheta .f32) (w1 : FVec Ideal SW1 .f32) (b1 : FVec Ideal SB1 .f32)
  (w2 : FVec Ideal SW2 .f32) (b2 : FVec Ideal SB2 .f32)

/-! The composed operand indices, in coordinates. -/

theorem ix_x (b : Fin 8) (s : Fin 4096) (e : Fin 1024) (f : Fin 4096) (q : Fin 8) :
    idx_main_v0 (lidx_main_v6 (lidx_main_v11 (ix3 b s e) f) q) = ix3 b s (chan q) :=
  funext fun a => Fin.ext (by match a with | ⟨0, _⟩ => rfl | ⟨1, _⟩ => rfl | ⟨2, _⟩ => rfl)

theorem ix_theta (b : Fin 8) (s : Fin 4096) (e : Fin 1024) (f : Fin 4096) (q : Fin 8) :
    idx_main_v3 (idx_main_v4 (lidx_main_v6 (lidx_main_v11 (ix3 b s e) f) q)) = ix1 q :=
  funext fun a => Fin.ext (by match a with | ⟨0, _⟩ => rfl)

theorem ix_w1 (b : Fin 8) (s : Fin 4096) (e : Fin 1024) (f : Fin 4096) (q : Fin 8) :
    ridx_main_v6 (lidx_main_v11 (ix3 b s e) f) q = ix2 f q :=
  funext fun a => Fin.ext (by match a with | ⟨0, _⟩ => rfl | ⟨1, _⟩ => rfl)

theorem ix_b1 (b : Fin 8) (s : Fin 4096) (e : Fin 1024) (f : Fin 4096) :
    idx_main_v7 (idx_main_v8 (lidx_main_v11 (ix3 b s e) f)) = ix1 f :=
  funext fun a => Fin.ext (by match a with | ⟨0, _⟩ => rfl)

theorem ix_w2 (b : Fin 8) (s : Fin 4096) (e : Fin 1024) (f : Fin 4096) :
    ridx_main_v11 (ix3 b s e) f = ix2 e f :=
  funext fun a => Fin.ext (by match a with | ⟨0, _⟩ => rfl | ⟨1, _⟩ => rfl)

theorem ix_b2 (b : Fin 8) (s : Fin 4096) (e : Fin 1024) :
    idx_main_v12 (idx_main_v13 (ix3 b s e)) = ix1 e :=
  funext fun a => Fin.ext (by match a with | ⟨0, _⟩ => rfl)

/-- The reference's last stage is the specified result. -/
theorem stage_eq : val_main_v14 (F := Ideal) x θ w1 b1 w2 b2 = result x θ w1 b1 w2 b2 := by
  funext i
  obtain ⟨b, s, e, rfl⟩ : ∃ (b : Fin 8) (s : Fin 4096) (e : Fin 1024), i = ix3 b s e := ⟨i 0, i 1, i 2, eq_ix3 i⟩
  show _ = outv x θ w1 b1 w2 b2 b s e
  unfold outv hidden feat
  simp only [val_main_v14_apply, val_main_v11_apply, val_main_v10_apply, val_main_v9_apply, val_main_v6_apply,
    val_main_v5_apply, val_main_v1_apply, val_main_v0_apply, val_main_v4_apply, val_main_v3_apply, val_main_v2_apply,
    val_main_v8_apply, val_main_v7_apply, val_main_call0_v0_apply, val_main_call0_cst_apply, val_main_v13_apply,
    val_main_v12_apply, ix_x, ix_theta, ix_w1, ix_b1, ix_w2, ix_b2,
    Ideal.addf_def, Ideal.mulf_def, Ideal.maximumf_def, Ideal.hostUnary_cos_def, Ideal.ofBits_def, Ideal.ofBits_zero_f32]

end Cert.Mlp.Ref

end
-- ==== Proof.Staged.lean ====
/-
  What the kernel region finds in the five arrays it stages, at an index.

  Before the region the program computes, on the host: the feature matrix q[r, k] = cos x[b, s, k] · cos θ[k] for the
  flat row r = 4096 · b + s (a slice of the first eight channels, two cosines, a product, a reshape to [32768, 8]);
  the two weight matrices transposed, w1ᵀ[k, f] = w1[f, k] and w2ᵀ[f, e] = w2[e, f]; and the two biases as one-row
  matrices.  The changes of float format are the identity on the extended reals.
-/
import proofs.«118878_j65481071399837_1_alg».proof.Proof.Gen.KernelIdeal.Frame
import proofs.«118878_j65481071399837_1_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.Mlp.Staged

open Cert.KernelIdeal Cert.KernelIdeal.Gen Idealize.ShloMosaic Idealize.ShloMosaic.TcCoe Idealize.SL.Sem
open Idealize.ShloMosaic.StableHlo Idealize.ShloMosaic.ValueIdx Cert.Mlp

variable (m : (ℓ : Loc nD τ sig) → Buf (Elt Ideal) ℓ)

/-! The six arguments, and the five staged arrays, each at its literal type. -/

abbrev argX (c : Dev nD) : FVec Ideal SX .f32 := m ((c : Thread nD τ).loc main_arg0)
abbrev argTheta (c : Dev nD) : FVec Ideal STheta .f32 := m ((c : Thread nD τ).loc main_arg1)
abbrev argW1 (c : Dev nD) : FVec Ideal SW1 .f32 := m ((c : Thread nD τ).loc main_arg2)
abbrev argB1 (c : Dev nD) : FVec Ideal SB1 .f32 := m ((c : Thread nD τ).loc main_arg3)
abbrev argW2 (c : Dev nD) : FVec Ideal SW2 .f32 := m ((c : Thread nD τ).loc main_arg4)
abbrev argB2 (c : Dev nD) : FVec Ideal SB2 .f32 := m ((c : Thread nD τ).loc main_arg5)

abbrev featArr (c : Dev nD) : FVec Ideal S32768x8 .bf16 := V m c main_v7
abbrev w1tArr (c : Dev nD) : FVec Ideal S8x4096 .bf16 := V m c main_v9
abbrev b1Arr (c : Dev nD) : FVec Ideal S1x4096 .f32 := V m c main_v12
abbrev w2tArr (c : Dev nD) : FVec Ideal S4096x1024 .bf16 := V m c main_v11
abbrev b2Arr (c : Dev nD) : FVec Ideal S1x1024 .f32 := V m c main_v13

/-! The host operations that write them, composed. -/

theorem featArr_eq (c : Dev nD) : featArr m c =
    truncf .bf16 (shapeCast S32768x8 (mulf (Host.cos (extractStridedSlice S8x4096x8 ![0, 0, 0] (argX m c) slices_S8x4096x1024_S8x4096x8_0_0_0))
      (broadcastInDim S8x4096x8 ![0, 1, 2] bcast_S1x1x8_S8x4096x8_0_1_2 (broadcastInDim S1x1x8 ![2] bcast_S8_S1x1x8_2 (Host.cos (argTheta m c)))))
      shapeCasts_S8x4096x8_S32768x8) bitsLt_bf16_f32 := by
  show StableHlo.after hostOps0 (fun b => m (c, b)) (Proc.devRef .tc main_v7) = _
  after_results <;> rfl

theorem w1tArr_eq (c : Dev nD) : w1tArr m c =
    truncf .bf16 (transpose S8x4096 [1, 0] (argW1 m c) transposes_S4096x8_S8x4096_1_0) bitsLt_bf16_f32 := by
  show StableHlo.after hostOps0 (fun b => m (c, b)) (Proc.devRef .tc main_v9) = _
  after_results <;> rfl

theorem w2tArr_eq (c : Dev nD) : w2tArr m c =
    truncf .bf16 (transpose S4096x1024 [1, 0] (argW2 m c) transposes_S1024x4096_S4096x1024_1_0) bitsLt_bf16_f32 := by
  show StableHlo.after hostOps0 (fun b => m (c, b)) (Proc.devRef .tc main_v11) = _
  after_results <;> rfl

theorem b1Arr_eq (c : Dev nD) : b1Arr m c = shapeCast S1x4096 (argB1 m c) shapeCasts_S4096_S1x4096 := by
  show StableHlo.after hostOps0 (fun b => m (c, b)) (Proc.devRef .tc main_v12) = _
  after_results <;> rfl

theorem b2Arr_eq (c : Dev nD) : b2Arr m c = shapeCast S1x1024 (argB2 m c) shapeCasts_S1024_S1x1024 := by
  show StableHlo.after hostOps0 (fun b => m (c, b)) (Proc.devRef .tc main_v13) = _
  after_results <;> rfl

/-! Each, read at an index. -/

/-- Row `r`, column `k` of the feature matrix is feature `k` of token (r / 4096, r % 4096). -/
theorem featArr_apply (c : Dev nD) (r : Fin 32768) (k : Fin 8) :
    featArr m c (ix2 r k) = feat (argX m c) (argTheta m c) (rowB r) (rowS r) k := by
  rw [featArr_eq, truncf_apply]
  refine (shapeCast_apply _ shapeCasts_S8x4096x8_S32768x8 (ix2 r k) (ix3 (rowB r) (rowS r) k) ?_).trans ?_
  · rw [Shape.rowMajor_val_three, Shape.rowMajor_val_two]
    show (r.val / 4096 * 4096 + r.val % 4096) * 8 + k.val = r.val * 8 + k.val
    omega
  · rw [mulf_apply]
    unfold feat
    congr 1
    · show FloatOps.hostUnary .cos (extractStridedSlice S8x4096x8 ![0, 0, 0] (argX m c) slices_S8x4096x1024_S8x4096x8_0_0_0 (ix3 (rowB r) (rowS r) k)) = _
      rw [Ideal.hostUnary_cos_def,
        extractStridedSlice_apply ![0, 0, 0] (argX m c) slices_S8x4096x1024_S8x4096x8_0_0_0 (ix3 (rowB r) (rowS r) k) (ix3 (rowB r) (rowS r) (chan k))
          (fun a => match a with
            | ⟨0, _⟩ => by show r.val / 4096 = 0 + r.val / 4096; omega
            | ⟨1, _⟩ => by show r.val % 4096 = 0 + r.val % 4096; omega
            | ⟨2, _⟩ => by show k.val = 0 + k.val; omega)]
    · refine (broadcastInDim_apply _ bcast_S1x1x8_S8x4096x8_0_1_2 _ (ix3 (rowB r) (rowS r) k) (ix3 (0 : Fin 1) (0 : Fin 1) k)
          (fun a => match a with
            | ⟨0, _⟩ => by show 0 = if (1 : Nat) = 1 then 0 else r.val / 4096; rw [if_pos rfl]
            | ⟨1, _⟩ => by show 0 = if (1 : Nat) = 1 then 0 else r.val % 4096; rw [if_pos rfl]
            | ⟨2, _⟩ => by show k.val = if (8 : Nat) = 1 then 0 else k.val; rw [if_neg (by decide)])).trans ?_
      refine (broadcastInDim_apply _ bcast_S8_S1x1x8_2 _ (ix3 (0 : Fin 1) (0 : Fin 1) k) (ix1 k)
          (fun a => match a with
            | ⟨0, _⟩ => by show k.val = if (8 : Nat) = 1 then 0 else k.val; rw [if_neg (by decide)])).trans ?_
      show FloatOps.hostUnary .cos (argTheta m c (ix1 k)) = _
      rw [Ideal.hostUnary_cos_def]

/-- The first weight matrix is staged transposed. -/
theorem w1tArr_apply (c : Dev nD) (k : Fin 8) (f : Fin 4096) : w1tArr m c (ix2 k f) = argW1 m c (ix2 f k) := by
  rw [w1tArr_eq, truncf_apply]
  exact transpose_ix2_apply (argW1 m c) transposes_S4096x8_S8x4096_1_0 k f

/-- The second weight matrix is staged transposed. -/
theorem w2tArr_apply (c : Dev nD) (f : Fin 4096) (e : Fin 1024) : w2tArr m c (ix2 f e) = argW2 m c (ix2 e f) := by
  rw [w2tArr_eq, truncf_apply]
  exact transpose_ix2_apply (argW2 m c) transposes_S1024x4096_S4096x1024_1_0 f e

/-- The first bias is staged as one row. -/
theorem b1Arr_apply (c : Dev nD) (u : Fin 1) (f : Fin 4096) : b1Arr m c (ix2 u f) = argB1 m c (ix1 f) := by
  rw [b1Arr_eq]
  exact shapeCast_a_1a_apply (argB1 m c) shapeCasts_S4096_S1x4096 u f

/-- The second bias is staged as one row. -/
theorem b2Arr_apply (c : Dev nD) (u : Fin 1) (e : Fin 1024) : b2Arr m c (ix2 u e) = argB2 m c (ix1 e) := by
  rw [b2Arr_eq]
  exact shapeCast_a_1a_apply (argB2 m c) shapeCasts_S1024_S1x1024 u e

end Cert.Mlp.Staged

end
-- ==== Proof.Body.lean ====
/-
  One grid point's arithmetic, at an index.

  The body multiplies a [512, 8] block of features by the [8, 4096] transposed first weights, adds the first bias
  row to every row, rectifies, multiplies by the [4096, 1024] transposed second weights and adds the second bias
  row.  On the extended reals a matrix product into a zero accumulator is the plain sum over the contracted
  coordinate, so entry (p, e) of what the body stores is
      Σ_f max (Σ_k A[p, k] · B[k, f] + u[0, f]) 0 · C[f, e] + v[0, e].
-/
import proofs.«118878_j65481071399837_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Mlp.Body

open Cert.KernelIdeal Cert.KernelIdeal.Gen Idealize.ShloMosaic Idealize.ShloMosaic.ValueIdx

/-! ## The first product, [512, 8] · [8, 4096]: its operand indices axis by axis -/

theorem lhsA_0 (i : S512x4096.Idx) (q : dot_S512x8_S8x4096_S512x4096_1_0_0_1_n_n.contr.Idx) :
    (dot_S512x8_S8x4096_S512x4096_1_0_0_1_n_n.lhsIdx i q 0).val = (i 0).val := by
  unfold DotDims.lhsIdx
  rw [dif_neg (show ¬(0 : Fin S512x8.rank) ∈ dot_S512x8_S8x4096_S512x4096_1_0_0_1_n_n.lhsBatch by decide), dif_pos (show (0 : Fin S512x8.rank) ∈ dot_S512x8_S8x4096_S512x4096_1_0_0_1_n_n.lhsNonContracting by decide)]
  rfl
theorem lhsA_1 (i : S512x4096.Idx) (q : dot_S512x8_S8x4096_S512x4096_1_0_0_1_n_n.contr.Idx) :
    (dot_S512x8_S8x4096_S512x4096_1_0_0_1_n_n.lhsIdx i q 1).val = (q ⟨0, by decide⟩).val :=
  dot_S512x8_S8x4096_S512x4096_1_0_0_1_n_n.lhsIdx_val_of_single rfl i q
theorem rhsA_0 (i : S512x4096.Idx) (q : dot_S512x8_S8x4096_S512x4096_1_0_0_1_n_n.contr.Idx) :
    (dot_S512x8_S8x4096_S512x4096_1_0_0_1_n_n.rhsIdx i q 0).val = (q ⟨0, by decide⟩).val :=
  dot_S512x8_S8x4096_S512x4096_1_0_0_1_n_n.rhsIdx_val_of_single rfl i q
theorem rhsA_1 (i : S512x4096.Idx) (q : dot_S512x8_S8x4096_S512x4096_1_0_0_1_n_n.contr.Idx) :
    (dot_S512x8_S8x4096_S512x4096_1_0_0_1_n_n.rhsIdx i q 1).val = (i 1).val := by
  unfold DotDims.rhsIdx
  rw [dif_neg (show ¬(1 : Fin S8x4096.rank) ∈ dot_S512x8_S8x4096_S512x4096_1_0_0_1_n_n.rhsBatch by decide), dif_pos (show (1 : Fin S8x4096.rank) ∈ dot_S512x8_S8x4096_S512x4096_1_0_0_1_n_n.rhsNonContracting by decide)]
  rfl

/-- Entry (p, f) of the first product into a zero accumulator: the sum over the eight contracted coordinates. -/
theorem firstProduct_apply (A : FVec Ideal S512x8 .bf16) (B : FVec Ideal S8x4096 .bf16) (p : Fin 512) (f : Fin 4096) :
    matmul dot_S512x8_S8x4096_S512x4096_1_0_0_1_n_n none A B (constant S512x4096 .f32 0x00000000#32) (ix2 p f) = ∑ k : Fin 8, A (ix2 p k) * B (ix2 k f) := by
  simp only [matmul]
  rw [Ideal.matmul_constant_zero_apply, ← Equiv.sum_comp (contrEquiv1 dot_S512x8_S8x4096_S512x4096_1_0_0_1_n_n 8 rfl rfl).symm]
  refine Finset.sum_congr rfl fun k _ => ?_
  have hk := contrEquiv1_symm_val dot_S512x8_S8x4096_S512x4096_1_0_0_1_n_n 8 rfl rfl k
  have el : dot_S512x8_S8x4096_S512x4096_1_0_0_1_n_n.lhsIdx (ix2 p f) ((contrEquiv1 dot_S512x8_S8x4096_S512x4096_1_0_0_1_n_n 8 rfl rfl).symm k) = ix2 p k := funext fun a => Fin.ext (by
    match a with
    | ⟨0, _⟩ => exact lhsA_0 _ _
    | ⟨1, _⟩ => exact (lhsA_1 _ _).trans hk)
  have er : dot_S512x8_S8x4096_S512x4096_1_0_0_1_n_n.rhsIdx (ix2 p f) ((contrEquiv1 dot_S512x8_S8x4096_S512x4096_1_0_0_1_n_n 8 rfl rfl).symm k) = ix2 k f := funext fun a => Fin.ext (by
    match a with
    | ⟨0, _⟩ => exact (rhsA_0 _ _).trans hk
    | ⟨1, _⟩ => exact rhsA_1 _ _)
  rw [el, er]

/-! ## The second product, [512, 4096] · [4096, 1024] -/

theorem lhsB_0 (i : S512x1024.Idx) (q : dot_S512x4096_S4096x1024_S512x1024_1_0_0_1_n_n.contr.Idx) :
    (dot_S512x4096_S4096x1024_S512x1024_1_0_0_1_n_n.lhsIdx i q 0).val = (i 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl
theorem lhsB_1 (i : S512x1024.Idx) (q : dot_S512x4096_S4096x1024_S512x1024_1_0_0_1_n_n.contr.Idx) :
    (dot_S512x4096_S4096x1024_S512x1024_1_0_0_1_n_n.lhsIdx i q 1).val = (q ⟨0, by decide⟩).val :=
  dot_S512x4096_S4096x1024_S512x1024_1_0_0_1_n_n.lhsIdx_val_of_single rfl i q
theorem rhsB_0 (i : S512x1024.Idx) (q : dot_S512x4096_S4096x1024_S512x1024_1_0_0_1_n_n.contr.Idx) :
    (dot_S512x4096_S4096x1024_S512x1024_1_0_0_1_n_n.rhsIdx i q 0).val = (q ⟨0, by decide⟩).val :=
  dot_S512x4096_S4096x1024_S512x1024_1_0_0_1_n_n.rhsIdx_val_of_single rfl i q
theorem rhsB_1 (i : S512x1024.Idx) (q : dot_S512x4096_S4096x1024_S512x1024_1_0_0_1_n_n.contr.Idx) :
    (dot_S512x4096_S4096x1024_S512x1024_1_0_0_1_n_n.rhsIdx i q 1).val = (i 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl

/-- Entry (p, e) of the second product into a zero accumulator: the sum over the 4096 hidden units. -/
theorem secondProduct_apply (H : FVec Ideal S512x4096 .bf16) (C : FVec Ideal S4096x1024 .bf16) (p : Fin 512) (e : Fin 1024) :
    matmul dot_S512x4096_S4096x1024_S512x1024_1_0_0_1_n_n none H C (constant S512x1024 .f32 0x00000000#32) (ix2 p e) = ∑ f : Fin 4096, H (ix2 p f) * C (ix2 f e) := by
  simp only [matmul]
  rw [Ideal.matmul_constant_zero_apply, ← Equiv.sum_comp (contrEquiv1 dot_S512x4096_S4096x1024_S512x1024_1_0_0_1_n_n 4096 rfl rfl).symm]
  refine Finset.sum_congr rfl fun k _ => ?_
  have hk := contrEquiv1_symm_val dot_S512x4096_S4096x1024_S512x1024_1_0_0_1_n_n 4096 rfl rfl k
  have el : dot_S512x4096_S4096x1024_S512x1024_1_0_0_1_n_n.lhsIdx (ix2 p e) ((contrEquiv1 dot_S512x4096_S4096x1024_S512x1024_1_0_0_1_n_n 4096 rfl rfl).symm k) = ix2 p k := funext fun a => Fin.ext (by
    match a with
    | ⟨0, _⟩ => exact lhsB_0 _ _
    | ⟨1, _⟩ => exact (lhsB_1 _ _).trans hk)
  have er : dot_S512x4096_S4096x1024_S512x1024_1_0_0_1_n_n.rhsIdx (ix2 p e) ((contrEquiv1 dot_S512x4096_S4096x1024_S512x1024_1_0_0_1_n_n 4096 rfl rfl).symm k) = ix2 k e := funext fun a => Fin.ext (by
    match a with
    | ⟨0, _⟩ => exact (rhsB_0 _ _).trans hk
    | ⟨1, _⟩ => exact rhsB_1 _ _)
  rw [el, er]

/-! ## The stored value -/

/-- Entry (p, e) of what the body stores, from the five blocks it loads. -/
theorem stored_apply (A : Vec Ideal S512x8 .bf16) (B : Vec Ideal S8x4096 .bf16) (u : Vec Ideal S1x4096 .f32)
    (C : Vec Ideal S4096x1024 .bf16) (v : Vec Ideal S1x1024 .f32) (p : Fin 512) (e : Fin 1024) :
    k0_pay1 (F := Ideal) A B u C v (ix2 p e)
      = (∑ f : Fin 4096, max ((∑ k : Fin 8, A (ix2 p k) * B (ix2 k f)) + u (ix2 (0 : Fin 1) f)) 0 * C (ix2 f e))
        + v (ix2 (0 : Fin 1) e) := by
  unfold k0_pay1
  simp only [shapeCast_self]
  rw [addf_apply, secondProduct_apply, broadcastTo_1b_ab_apply]
  congr 1
  refine Finset.sum_congr rfl fun f _ => ?_
  rw [truncf_apply, maximumf_apply, addf_apply, firstProduct_apply, broadcastTo_1b_ab_apply, broadcast_apply]
  show max _ (Ideal.ofBits .f32 0x00000000#32) * _ = _
  rw [Ideal.ofBits_zero_f32]

/-- The same with each loaded entry named: whatever the five blocks are known to hold at the entries row `p` and
    column `e` depend on, the stored entry is the two-layer expression over those. -/
theorem stored_eq_of (A : Vec Ideal S512x8 .bf16) (B : Vec Ideal S8x4096 .bf16) (u : Vec Ideal S1x4096 .f32)
    (C : Vec Ideal S4096x1024 .bf16) (v : Vec Ideal S1x1024 .f32) (p : Fin 512) (e : Fin 1024)
    (Q : Fin 8 → EReal) (W1 : Fin 4096 → Fin 8 → EReal) (B1 : Fin 4096 → EReal) (W2 : Fin 4096 → EReal) (B2 : EReal)
    (hA : ∀ k, A (ix2 p k) = Q k) (hB : ∀ k f, B (ix2 k f) = W1 f k) (hu : ∀ f, u (ix2 (0 : Fin 1) f) = B1 f)
    (hC : ∀ f, C (ix2 f e) = W2 f) (hv : v (ix2 (0 : Fin 1) e) = B2) :
    k0_pay1 (F := Ideal) A B u C v (ix2 p e) = (∑ f : Fin 4096, max ((∑ k : Fin 8, Q k * W1 f k) + B1 f) 0 * W2 f) + B2 := by
  rw [stored_apply]
  simp only [hA, hB, hu, hC, hv]

end Cert.Mlp.Body

end
-- ==== Proof.Region.lean ====
/-
  The kernel's result array.

  The grid has 64 points; point t stages rows 512·t … 512·t + 511 of the feature matrix, the whole of the two
  transposed weight matrices and of the two bias rows, and writes back rows 512·t … 512·t + 511 of the [32768, 1024]
  output.  So what point t writes back is block t of ONE function of the arguments, the flat result
  `Cert.Mlp.rowsOut`; the 64 blocks cover the output, which therefore ends holding that function; and the reshape
  after the region reads row 4096·b + s as token (b, s): the program's result is `Cert.Mlp.result`.
-/
import proofs.«118878_j65481071399837_1_alg».proof.Proof.Gen.KernelIdeal.Frame
import proofs.«118878_j65481071399837_1_alg».proof.Proof.Spec
import proofs.«118878_j65481071399837_1_alg».proof.Proof.Staged
import proofs.«118878_j65481071399837_1_alg».proof.Proof.Body
import Idealize.ShloMosaic.Lib.StableHlo.Run
import Idealize.ShloMosaic.Lib.Pipeline.Value
import Idealize.ShloMosaic.Lib.ValueIdx

noncomputable section

open scoped BigOperators

namespace Cert.Mlp.Region

open Cert.KernelIdeal Cert.KernelIdeal.Gen Idealize.ShloMosaic Idealize.ShloMosaic.TcCoe Idealize.SL.Sem
open Idealize.ShloMosaic.Pipeline (Dat)
open Idealize.ShloMosaic.StableHlo Idealize.ShloMosaic.ValueIdx Cert.Mlp Cert.Mlp.Staged

variable (m : (ℓ : Loc nD τ sig) → Buf (Elt Ideal) ℓ) (ρ : Dev nD → PrngReg)

/-- The flat result of the arguments on core `c`. -/
abbrev flatResult (c : Dev nD) : FVec Ideal S32768x1024 .f32 :=
  rowsOut (argX m c) (argTheta m c) (argW1 m c) (argB1 m c) (argW2 m c) (argB2 m c)

/-- The result of the arguments on core `c`. -/
abbrev wholeResult (c : Dev nD) : FVec Ideal S8x4096x1024 .f32 :=
  result (argX m c) (argTheta m c) (argW1 m c) (argB1 m c) (argW2 m c) (argB2 m c)

theorem offZero : (![0, 0] : Fin 2 → Nat) = fun _ => 0 := funext fun a => by fin_cases a <;> rfl

/-- The block indices over the grid: the feature window moves with the output's row block, every other input window
    stays on its one block, and the output's row block is below 64 on column block 0. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 63 ∧ win0_5.index t (1 : Fin 2) = 0 :=
  (by decide +kernel : ∀ t : Fin grid0.N, _)

/-- Every one of the 64 row blocks is some point's. -/
theorem idx_onto : ∀ q0 : Fin 64, ∃ t : Fin cfg0.N, win0_5.index t = ![q0.val, 0] :=
  (by decide +kernel : ∀ q0 : Fin 64, ∃ t : Fin grid0.N, win0_5.index t = ![q0.val, 0])

/-! ## Each staged block is its array read under the block -/

theorem featBlk_apply (c : Dev nD) (t : Fin cfg0.N) (p : Fin 512) (k : Fin 8) (r : Fin 32768)
    (hr : r.val = win0_5.index t (0 : Fin 2) * 512 + p.val) :
    (iblk m c 0 t : Vec Ideal S512x8 .bf16) (ix2 p k) = featArr m c (ix2 r k) := by
  obtain ⟨e0, e1, -⟩ := idx_facts t
  show featArr m c (((cfg0.win 0).blk t).view.emb (ix2 p k)) = featArr m c (ix2 r k)
  refine congrArg (featArr m c) (funext fun a => Fin.ext ?_)
  match a with
  | ⟨0, _⟩ => show win0_0.index t (0 : Fin 2) * 512 + 1 * p.val = r.val; omega
  | ⟨1, _⟩ => show win0_0.index t (1 : Fin 2) * 8 + 1 * k.val = k.val; omega

theorem w1tBlk_apply (c : Dev nD) (t : Fin cfg0.N) (k : Fin 8) (f : Fin 4096) :
    (iblk m c 1 t : Vec Ideal S8x4096 .bf16) (ix2 k f) = w1tArr m c (ix2 k f) := by
  obtain ⟨-, -, e2, e3, -⟩ := idx_facts t
  show w1tArr m c (((cfg0.win 1).blk t).view.emb (ix2 k f)) = w1tArr m c (ix2 k f)
  refine congrArg (w1tArr m c) (funext fun a => Fin.ext ?_)
  match a with
  | ⟨0, _⟩ => show win0_1.index t (0 : Fin 2) * 8 + 1 * k.val = k.val; omega
  | ⟨1, _⟩ => show win0_1.index t (1 : Fin 2) * 4096 + 1 * f.val = f.val; omega

theorem b1Blk_apply (c : Dev nD) (t : Fin cfg0.N) (u : Fin 1) (f : Fin 4096) :
    (iblk m c 2 t : Vec Ideal S1x4096 .f32) (ix2 u f) = b1Arr m c (ix2 u f) := by
  obtain ⟨-, -, -, -, e4, e5, -⟩ := idx_facts t
  show b1Arr m c (((cfg0.win 2).blk t).view.emb (ix2 u f)) = b1Arr m c (ix2 u f)
  refine congrArg (b1Arr m c) (funext fun a => Fin.ext ?_)
  match a with
  | ⟨0, _⟩ => show win0_2.index t (0 : Fin 2) * 1 + 1 * u.val = u.val; omega
  | ⟨1, _⟩ => show win0_2.index t (1 : Fin 2) * 4096 + 1 * f.val = f.val; omega

theorem w2tBlk_apply (c : Dev nD) (t : Fin cfg0.N) (f : Fin 4096) (e : Fin 1024) :
    (iblk m c 3 t : Vec Ideal S4096x1024 .bf16) (ix2 f e) = w2tArr m c (ix2 f e) := by
  obtain ⟨-, -, -, -, -, -, e6, e7, -⟩ := idx_facts t
  show w2tArr m c (((cfg0.win 3).blk t).view.emb (ix2 f e)) = w2tArr m c (ix2 f e)
  refine congrArg (w2tArr m c) (funext fun a => Fin.ext ?_)
  match a with
  | ⟨0, _⟩ => show win0_3.index t (0 : Fin 2) * 4096 + 1 * f.val = f.val; omega
  | ⟨1, _⟩ => show win0_3.index t (1 : Fin 2) * 1024 + 1 * e.val = e.val; omega

theorem b2Blk_apply (c : Dev nD) (t : Fin cfg0.N) (u : Fin 1) (e : Fin 1024) :
    (iblk m c 4 t : Vec Ideal S1x1024 .f32) (ix2 u e) = b2Arr m c (ix2 u e) := by
  obtain ⟨-, -, -, -, -, -, -, -, e8, e9, -⟩ := idx_facts t
  show b2Arr m c (((cfg0.win 4).blk t).view.emb (ix2 u e)) = b2Arr m c (ix2 u e)
  refine congrArg (b2Arr m c) (funext fun a => Fin.ext ?_)
  match a with
  | ⟨0, _⟩ => show win0_4.index t (0 : Fin 2) * 1 + 1 * u.val = u.val; omega
  | ⟨1, _⟩ => show win0_4.index t (1 : Fin 2) * 1024 + 1 * e.val = e.val; omega

/-! ## What a point stores -/

/-- Entry (p, e) of what point `t` stores is output channel `e` of the token whose flat row `r` lies `p` rows into
    the point's row block. -/
theorem stored_at (c : Dev nD) (t : Fin cfg0.N) (p : Fin 512) (e : Fin 1024) (r : Fin 32768)
    (hr : r.val = win0_5.index t (0 : Fin 2) * 512 + p.val) :
    k0_pay1 (F := Ideal) (iblk m c 0 t) (iblk m c 1 t) (iblk m c 2 t) (iblk m c 3 t) (iblk m c 4 t) (ix2 p e)
      = outv (argX m c) (argTheta m c) (argW1 m c) (argB1 m c) (argW2 m c) (argB2 m c) (rowB r) (rowS r) e := by
  unfold outv hidden
  exact Body.stored_eq_of (iblk m c 0 t) (iblk m c 1 t) (iblk m c 2 t) (iblk m c 3 t) (iblk m c 4 t) p e
    (fun k => feat (argX m c) (argTheta m c) (rowB r) (rowS r) k)
    (fun f k => argW1 m c (ix2 f k)) (fun f => argB1 m c (ix1 f)) (fun f => argW2 m c (ix2 e f)) (argB2 m c (ix1 e))
    (fun k => (featBlk_apply m c t p k r hr).trans (featArr_apply m c r k))
    (fun k f => (w1tBlk_apply m c t k f).trans (w1tArr_apply m c k f))
    (fun f => (b1Blk_apply m c t 0 f).trans (b1Arr_apply m c 0 f))
    (fun f => (w2tBlk_apply m c t f e).trans (w2tArr_apply m c f e))
    ((b2Blk_apply m c t 0 e).trans (b2Arr_apply m c 0 e))

/-- WHAT POINT `t` WRITES BACK is block `t` of the flat result. -/
theorem flushed_eq (c : Dev nD) (t : Fin cfg0.N) :
    (dats m 0 c).flushed 5 t = ((cfg0.win 5).blk t).view.read (Elt Ideal) (flatResult m c) := by
  show (cfg0.win 5).cut (grid0.coords t) ((dats m 0 c).after 5 t) = _
  rw [after0_5]
  unfold out0_5
  rw [View.canon_unit_zero offZero]
  simp only [View.ld_unit_zero (S := S512x8) offZero, View.ld_unit_zero (S := S8x4096) offZero,
    View.ld_unit_zero (S := S1x4096) offZero, View.ld_unit_zero (S := S4096x1024) offZero,
    View.ld_unit_zero (S := S1x1024) offZero]
  obtain ⟨-, -, -, -, -, -, -, -, -, -, e10, e11⟩ := idx_facts t
  funext j
  have hj0 : (j 0).val < 512 := (j 0).isLt
  have hj1 : (j 1).val < 1024 := (j 1).isLt
  show k0_pay1 (F := Ideal) (iblk m c 0 t) (iblk m c 1 t) (iblk m c 2 t) (iblk m c 3 t) (iblk m c 4 t) j
    = flatResult m c (((cfg0.win 5).blk t).view.emb j)
  have hjj : (j : S512x1024.Idx) = ix2 (⟨(j 0).val, hj0⟩ : Fin 512) (⟨(j 1).val, hj1⟩ : Fin 1024) :=
    funext fun a => by match a with | ⟨0, _⟩ => rfl | ⟨1, _⟩ => rfl
  have hemb : ((cfg0.win 5).blk t).view.emb j
      = ix2 (⟨win0_5.index t (0 : Fin 2) * 512 + (j 0).val, by omega⟩ : Fin 32768) (⟨(j 1).val, hj1⟩ : Fin 1024) :=
    funext fun a => Fin.ext (by
      match a with
      | ⟨0, _⟩ => show win0_5.index t (0 : Fin 2) * 512 + 1 * (j 0).val = win0_5.index t (0 : Fin 2) * 512 + (j 0).val; omega
      | ⟨1, _⟩ => show win0_5.index t (1 : Fin 2) * 1024 + 1 * (j 1).val = (j 1).val; omega)
  refine (congrArg (k0_pay1 (F := Ideal) (iblk m c 0 t) (iblk m c 1 t) (iblk m c 2 t) (iblk m c 3 t) (iblk m c 4 t)) hjj).trans ?_
  refine Eq.trans ?_ (congrArg (flatResult m c) hemb).symm
  exact stored_at m c t ⟨(j 0).val, hj0⟩ ⟨(j 1).val, hj1⟩ ⟨win0_5.index t (0 : Fin 2) * 512 + (j 0).val, by omega⟩ rfl

/-! ## The blocks cover the output -/

/-- An index of the output is in point `t`'s block iff each coordinate is in the block's range on its axis. -/
theorem mem_blk (t : Fin cfg0.N) (i : S32768x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v14).slice (win0_5.rect t)).set ↔ _
  rw [View.set_slice_whole, Rect.mem_set_unit]
  exact Iff.rfl

/-- Row `r` of the output lies in the block of the point whose row block is `r / 512`. -/
theorem covered (i : S32768x1024.Idx) : ∃ t : Fin cfg0.N, (cfg0.win 5).flush t = true ∧ i ∈ ((cfg0.win 5).blk t).view.set := by
  have hi0 : (i 0).val < 32768 := (i 0).isLt
  have hi1 : (i 1).val < 1024 := (i 1).isLt
  obtain ⟨t, ht⟩ := idx_onto ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- THE OUTPUT ARRAY after the region is the flat result. -/
theorem final (c : Dev nD) : (dats m 0 c).arrAt 5 cfg0.N = flatResult m c :=
  (dats m 0 c).arrAt_eq_of_cover 5 (flatResult m c) (fun t _ => flushed_eq m c t) covered

/-! ## The reshape after the region -/

/-- The program's result: the flat result's row 4096·b + s read as token (b, s). -/
theorem tail_eq (c : Dev nD) :
    (Pipeline.afterTail₀ cfgs (dats m) 0 (V0 m) [hostOps1] c main_v15 : FVec Ideal S8x4096x1024 .f32) = wholeResult m c := by
  unfold Pipeline.afterTail₀
  show StableHlo.after hostOps1 _ (Proc.devRef .tc main_v15) = _
  after_results
  show shapeCast S8x4096x1024 (Pipeline.withArrays (cfgs 0).spec c (V0 m c) (fun w => (dats m 0 c).arrAt w (cfgs 0).N) (Proc.devRef .tc main_v14))
    shapeCasts_S32768x1024_S8x4096x1024 = _
  have hw : Pipeline.withArrays (cfgs 0).spec c (V0 m c) (fun w => (dats m 0 c).arrAt w (cfgs 0).N) (Proc.devRef .tc main_v14) = flatResult m c :=
    (Pipeline.withArrays_arr spec0 launch0.win.arr_inj c _ _ 5).trans (final m c)
  rw [hw]
  funext i
  obtain ⟨b, s, e, rfl⟩ : ∃ (b : Fin 8) (s : Fin 4096) (e : Fin 1024), i = ix3 b s e := ⟨i 0, i 1, i 2, eq_ix3 i⟩
  have hb := b.isLt
  have hs := s.isLt
  refine (shapeCast_apply (flatResult m c) shapeCasts_S32768x1024_S8x4096x1024 (ix3 b s e)
    (ix2 (⟨b.val * 4096 + s.val, by omega⟩ : Fin 32768) e) ?_).trans
    (rowsOut_flat _ _ _ _ _ _ b s e ⟨b.val * 4096 + s.val, by omega⟩ rfl)
  rw [Shape.rowMajor_val_two, Shape.rowMajor_val_three]
  show (b.val * 4096 + s.val) * 1024 + e.val = (b.val * 4096 + s.val) * 1024 + e.val
  rfl

/-! ## The run, read -/

/-- Every weakly fair execution of the program terminates with the result buffer at the specified result of the
    arguments and the arguments unchanged. -/
theorem run : θ_run defs (onTc (τ := τ) (main (F := Ideal))) ⟨m, fun _ => 0, ρ⟩ fun r => ∀ c : Dev nD,
      r.2.mem ((c.tc : Thread nD τ).loc main_v15) = wholeResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v15 (Pipeline.mem_restRefs_of main_v15 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Mlp.Region

end
-- ==== Proof.lean ====
/-
  The kernel and its reference are one function over the extended reals.

  For a token (b, s):  q[k] = cos x[b, s, k] · cos θ[k]  (k below 8),  h[f] = max (Σ_k q[k] · w1[f, k] + b1[f]) 0,
  out[e] = Σ_f h[f] · w2[e, f] + b2[e].  The reference computes this with two contractions over [8, 4096, ·]
  arrays.  The kernel computes q on the host, flattens the tokens to 32768 rows, stages the weights transposed, and
  on each of 64 grid points multiplies a 512-row block through both layers; its changes of float format are the
  identity on the extended reals and a matrix product into a zero accumulator is the plain sum, so each point writes
  back its 512 rows of the same function, the blocks cover the output, and the final reshape reads row
  4096·b + s as token (b, s).  No law beyond re-indexing the two sums is needed, so the finiteness of the inputs is
  never used.

  The three frames are the generated ones (the reference's is its run with the result dropped); the idealization
  rewrote nothing, so `preserves` is trivial.
-/
import proofs.«118878_j65481071399837_1_alg».proof.Defs
import proofs.«118878_j65481071399837_1_alg».proof.Proof.Gen.Kernel
import proofs.«118878_j65481071399837_1_alg».proof.Proof.Gen.Kernel.Skeleton
import proofs.«118878_j65481071399837_1_alg».proof.Proof.Gen.Kernel.Launch
import proofs.«118878_j65481071399837_1_alg».proof.Proof.Gen.Kernel.Points
import proofs.«118878_j65481071399837_1_alg».proof.Proof.Gen.Kernel.Frame
import proofs.«118878_j65481071399837_1_alg».proof.Proof.Gen.KernelIdeal
import proofs.«118878_j65481071399837_1_alg».proof.Proof.Gen.KernelIdeal.Skeleton
import proofs.«118878_j65481071399837_1_alg».proof.Proof.Gen.KernelIdeal.Launch
import proofs.«118878_j65481071399837_1_alg».proof.Proof.Gen.KernelIdeal.Points
import proofs.«118878_j65481071399837_1_alg».proof.Proof.Gen.KernelIdeal.Frame
import proofs.«118878_j65481071399837_1_alg».proof.Proof.Gen.ReferenceIdeal
import proofs.«118878_j65481071399837_1_alg».proof.Proof.Gen.ReferenceIdeal.Run
import proofs.«118878_j65481071399837_1_alg».proof.Proof.Gen.ReferenceIdeal.Read
import proofs.«118878_j65481071399837_1_alg».proof.Proof.Gen.Pre_finite_inputs
import proofs.«118878_j65481071399837_1_alg».proof.Proof.RefSide
import proofs.«118878_j65481071399837_1_alg».proof.Proof.Region
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at `Cert.Mlp.result` of arguments that agree. -/
theorem algebraic : Cert.algebraic_KernelIdeal_ReferenceIdeal := by
  intro m ρ m' ρ' _ hagree
  refine ⟨fun c => Cert.Mlp.Region.wholeResult m c, Cert.Mlp.Region.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, Cert.Mlp.Ref.stage_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
